-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S2048 : Shape := ⟨1, ![2048]⟩
abbrev S64x2048x1 : Shape := ⟨3, ![64, 2048, 1]⟩
abbrev S64x2048 : Shape := ⟨2, ![64, 2048]⟩
abbrev S_ : Shape := ⟨0, ![]⟩
abbrev S1x2048 : Shape := ⟨2, ![1, 2048]⟩
abbrev S2048x1 : Shape := ⟨2, ![2048, 1]⟩

class Facts : Prop where
  slices_S64x2048x512_S64x2048x1_0_0_511 : S64x2048x512.Slices ![0, 0, 511] S64x2048x1
  shapeCasts_S64x2048x1_S64x2048 : S64x2048x1.ShapeCasts S64x2048
  reducesTo_S64x2048_S2048_d0 : S64x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S2048_S2048x1_0 : S2048.BroadcastsInDim S2048x1 (![0] : Fin 1 → Fin S2048x1.rank)
  bcast_S_S64x2048x512 : S_.BroadcastsInDim S64x2048x512 (![] : Fin 0 → Fin S64x2048x512.rank)
  reducesTo_S64x2048x512_S_d0_1_2 : S64x2048x512.ReducesTo [0, 1, 2] S_
  reducesTo_S2048_S_d0 : S2048.ReducesTo [0] S_
  gather_S2048_S2048x1_S2048_n_0_n_n_0_1_1_wf : GatherDims.WF S2048 S2048x1 S2048 [] [0] [] [0] [] 1 ![1]

variable [Facts]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf
def fn_part3 {F : FTy → Type} [FloatOps F] (main_arg2 : FVec F S2048 .f32) (main_v38 : FVec F S2048 .f32) (main_v48 : FVec F S2048 .f32) (main_v52 : IVec S_ 1) (main_v53 : FVec F S2048 .f32) (main_v54 : FVec F S2048 .f32) : IVec S_ 1 :=
  let main_v55 : IVec S2048 1 := cmpf .olt main_v53 main_v54
  let main_c_15 : IVec S_ 1 := constantI S_ 1 1#1
  let main_v56 : IVec S_ 1 := (fun x v => Host.reduce IntOp.andi x v reducesTo_S2048_S_d0 h_S_) main_v55 main_c_15
  let main_v57 : IVec S_ 1 := andi main_v52 main_v56
  let main_v58 : FVec F S2048 .f32 := Host.absf main_arg2
  let main_cst_16 : FVec F S_ .f32 := constant S_ .f32 0x7F800000#32
  let main_v59 : FVec F S2048 .f32 := broadcastInDim S2048 ![] bcast_S_S2048 main_cst_16
  let main_v60 : IVec S2048 1 := cmpf .olt main_v58 main_v59
  let main_c_17 : IVec S_ 1 := constantI S_ 1 1#1
  let main_v61 : IVec S_ 1 := (fun x v => Host.reduce IntOp.andi x v reducesTo_S2048_S_d0 h_S_) main_v60 main_c_17
  let main_v62 : IVec S_ 1 := andi main_v57 main_v61
  let main_cst_18 : FVec F S_ .f32 := constant S_ .f32 0x40000000#32
  let main_v63 : FVec F S2048 .f32 := broadcastInDim S2048 ![] bcast_S_S2048 main_cst_18
  let main_v64 : IVec S2048 1 := cmpf .oge main_v38 main_v63
  let main_cst_19 : FVec F S_ .f32 := constant S_ .f32 0x00000000#32
  let main_v65 : FVec F S2048 .f32 := broadcastInDim S2048 ![] bcast_S_S2048 main_cst_19
  let main_v66 : IVec S2048 1 := cmpf .ogt main_v48 main_v65
  let main_c_20 : IVec S_ 1 := constantI S_ 1 1#1
  let main_v67 : IVec S2048 1 := broadcastInDim S2048 ![] bcast_S_S2048 main_c_20
  let main_v68 : IVec S2048 1 := select main_v64 main_v66 main_v67
  let main_c_21 : IVec S_ 1 := constantI S_ 1 1#1
  let main_v69 : IVec S_ 1 := (fun x v => Host.reduce IntOp.andi x v reducesTo_S2048_S_d0 h_S_) main_v68 main_c_21
  let main_v70 : IVec S_ 1 := andi main_v62 main_v69
  main_v70

def fn_part2 {F : FTy → Type} [FloatOps F] (main_arg0 : FVec F S64x2048x512 .f32) (main_arg1 : FVec F S2048 .f32) (main_arg2 : FVec F S2048 .f32) (main_v13 : FVec F S2048 .f32) (main_v21 : FVec F S2048 .f32) (main_v35 : FVec F S2048 .f32) (main_v36 : FVec F S2048 .f32) : IVec S_ 1 :=
  let main_cst_9 : FVec F S_ .f32 := constant S_ .f32 0x42800000#32
  let main_v37 : FVec F S2048 .f32 := broadcastInDim S2048 ![] bcast_S_S2048 main_cst_9
  let main_v38 : FVec F S2048 .f32 := addf main_v21 main_v37
  let main_v39 : FVec F S2048 .f32 := addf main_v35 main_v13
  let main_v40 : FVec F S2048 .f32 := mulf main_v36 main_v36
  let main_v41 : FVec F S2048 .f32 := mulf main_v40 main_v21
  let main_cst_10 : FVec F S_ .f32 := constant S_ .f32 0x42800000#32
  let main_v42 : FVec F S2048 .f32 := broadcastInDim S2048 ![] bcast_S_S2048 main_cst_10
  let main_v43 : FVec F S2048 .f32 := mulf main_v41 main_v42
  let main_v44 : FVec F S2048 .f32 := Host.divf main_v43 main_v38
  let main_v45 : FVec F S2048 .f32 := addf main_v39 main_v44
  let main_v46 : FVec F S2048 .f32 := Host.divf main_v45 main_v38
  let main_cst_11 : FVec F S_ .f32 := constant S_ .f32 0x322BCC77#32
  let main_v47 : FVec F S2048 .f32 := broadcastInDim S2048 ![] bcast_S_S2048 main_cst_11
  let main_v48 : FVec F S2048 .f32 := addf main_v46 main_v47
  let main_v49 : FVec F S64x2048x512 .f32 := Host.absf main_arg0
  let main_cst_12 : FVec F S_ .f32 := constant S_ .f32 0x7F800000#32
  let main_v50 : FVec F S64x2048x512 .f32 := broadcastInDim S64x2048x512 ![] bcast_S_S64x2048x512 main_cst_12
  let main_v51 : IVec S64x2048x512 1 := cmpf .olt main_v49 main_v50
  let main_c_13 : IVec S_ 1 := constantI S_ 1 1#1
  let main_v52 : IVec S_ 1 := (fun x v => Host.reduce IntOp.andi x v reducesTo_S64x2048x512_S_d0_1_2 h_S_) main_v51 main_c_13
  let main_v53 : FVec F S2048 .f32 := Host.absf main_arg1
  let main_cst_14 : FVec F S_ .f32 := constant S_ .f32 0x7F800000#32
  let main_v54 : FVec F S2048 .f32 := broadcastInDim S2048 ![] bcast_S_S2048 main_cst_14
  fn_part3 (F := F) main_arg2 main_v38 main_v48 main_v52 main_v53 main_v54

def fn_part1 {F : FTy → Type} [FloatOps F] (main_arg0 : FVec F S64x2048x512 .f32) (main_arg1 : FVec F S2048 .f32) (main_arg2 : FVec F S2048 .f32) (main_arg3 : IVec S2048 32) (main_arg4 : IVec S2048 32) (main_v4 : FVec F S2048 .f32) (main_v13 : FVec F S2048 .f32) (main_v15 : IVec S2048 1) (main_v16 : IVec S2048 32) : IVec S_ 1 :=
  let main_v17 : IVec S2048 32 := addi main_arg4 main_v16
  let main_v18 : IVec S2048 32 := select main_v15 main_v17 main_arg4
  let main_v19 : IVec S2048x1 32 := broadcastInDim S2048x1 ![0] bcast_S2048_S2048x1_0 main_v18
  let main_v20 : IVec S2048 32 := (fun x i => Host.gather gather_S2048_S2048x1_S2048_n_0_n_n_0_1_1 x i) main_arg3 main_v19
  let main_v21 : FVec F S2048 .f32 := sitofp .f32 main_v20
  let main_c_5 : IVec S_ 32 := constantI S_ 32 0#32
  let main_v22 : IVec S2048 32 := broadcastInDim S2048 ![] bcast_S_S2048 main_c_5
  let main_v23 : IVec S2048 1 := cmpi .slt main_arg4 main_v22
  let main_c_6 : IVec S_ 32 := constantI S_ 32 2048#32
  let main_v24 : IVec S2048 32 := broadcastInDim S2048 ![] bcast_S_S2048 main_c_6
  let main_v25 : IVec S2048 32 := addi main_arg4 main_v24
  let main_v26 : IVec S2048 32 := select main_v23 main_v25 main_arg4
  let main_v27 : IVec S2048x1 32 := broadcastInDim S2048x1 ![0] bcast_S2048_S2048x1_0 main_v26
  let main_v28 : FVec F S2048 .f32 := (fun x i => Host.gather gather_S2048_S2048x1_S2048_n_0_n_n_0_1_1 x i) main_arg1 main_v27
  let main_c_7 : IVec S_ 32 := constantI S_ 32 0#32
  let main_v29 : IVec S2048 32 := broadcastInDim S2048 ![] bcast_S_S2048 main_c_7
  let main_v30 : IVec S2048 1 := cmpi .slt main_arg4 main_v29
  let main_c_8 : IVec S_ 32 := constantI S_ 32 2048#32
  let main_v31 : IVec S2048 32 := broadcastInDim S2048 ![] bcast_S_S2048 main_c_8
  let main_v32 : IVec S2048 32 := addi main_arg4 main_v31
  let main_v33 : IVec S2048 32 := select main_v30 main_v32 main_arg4
  let main_v34 : IVec S2048x1 32 := broadcastInDim S2048x1 ![0] bcast_S2048_S2048x1_0 main_v33
  let main_v35 : FVec F S2048 .f32 := (fun x i => Host.gather gather_S2048_S2048x1_S2048_n_0_n_n_0_1_1 x i) main_arg2 main_v34
  let main_v36 : FVec F S2048 .f32 := subf main_v4 main_v28
  fn_part2 (F := F) main_arg0 main_arg1 main_arg2 main_v13 main_v21 main_v35 main_v36

def fn {F : FTy → Type} [FloatOps F] (main_arg0 : FVec F S64x2048x512 .f32) (main_arg1 : FVec F S2048 .f32) (main_arg2 : FVec F S2048 .f32) (main_arg3 : IVec S2048 32) (main_arg4 : IVec S2048 32) : IVec S_ 1 :=
  let main_v0 : FVec F S64x2048x1 .f32 := (extractStridedSlice S64x2048x1 ![0, 0, 511] · slices_S64x2048x512_S64x2048x1_0_0_511) main_arg0
  let main_v1 : FVec F S64x2048 .f32 := shapeCast S64x2048 main_v0 shapeCasts_S64x2048x1_S64x2048
  let main_cst : FVec F S_ .f32 := constant S_ .f32 0x00000000#32
  let main_v2 : FVec F S2048 .f32 := (fun x v => Host.reduceAdd x v reducesTo_S64x2048_S2048_d0 h_S_) main_v1 main_cst
  let main_cst_0 : FVec F S_ .f32 := constant S_ .f32 0x42800000#32
  let main_v3 : FVec F S2048 .f32 := broadcastInDim S2048 ![] bcast_S_S2048 main_cst_0
  let main_v4 : FVec F S2048 .f32 := Host.divf main_v2 main_v3
  let main_v5 : FVec F S1x2048 .f32 := broadcastInDim S1x2048 ![1] bcast_S2048_S1x2048_1 main_v4
  let main_v6 : FVec F S64x2048 .f32 := broadcastInDim S64x2048 ![0, 1] bcast_S1x2048_S64x2048_0_1 main_v5
  let main_v7 : FVec F S64x2048 .f32 := subf main_v1 main_v6
  let main_v8 : FVec F S64x2048 .f32 := mulf main_v7 main_v7
  let main_cst_1 : FVec F S_ .f32 := constant S_ .f32 0x00000000#32
  let main_v9 : FVec F S2048 .f32 := (fun x v => Host.reduceAdd x v reducesTo_S64x2048_S2048_d0 h_S_) main_v8 main_cst_1
  let main_cst_2 : FVec F S_ .f32 := constant S_ .f32 0x42800000#32
  let main_v10 : FVec F S2048 .f32 := broadcastInDim S2048 ![] bcast_S_S2048 main_cst_2
  let main_v11 : FVec F S2048 .f32 := Host.divf main_v9 main_v10
  let main_cst_3 : FVec F S_ .f32 := constant S_ .f32 0x42800000#32
  let main_v12 : FVec F S2048 .f32 := broadcastInDim S2048 ![] bcast_S_S2048 main_cst_3
  let main_v13 : FVec F S2048 .f32 := mulf main_v11 main_v12
  let main_c : IVec S_ 32 := constantI S_ 32 0#32
  let main_v14 : IVec S2048 32 := broadcastInDim S2048 ![] bcast_S_S2048 main_c
  let main_v15 : IVec S2048 1 := cmpi .slt main_arg4 main_v14
  let main_c_4 : IVec S_ 32 := constantI S_ 32 2048#32
  let main_v16 : IVec S2048 32 := broadcastInDim S2048 ![] bcast_S_S2048 main_c_4
  fn_part1 (F := F) main_arg0 main_arg1 main_arg2 main_arg3 main_arg4 main_v4 main_v13 main_v15 main_v16
-- ==== Kernel.lean ====
abbrev S64x2048x512 : Shape := ⟨3, ![64, 2048, 512]⟩
abbrev S2048 : Shape := ⟨1, ![2048]⟩
abbrev S64x2048x1 : Shape := ⟨3, ![64, 2048, 1]⟩
abbrev S64x2048 : Shape := ⟨2, ![64, 2048]⟩
abbrev S_ : Shape := ⟨0, ![]⟩
abbrev S1x2048 : Shape := ⟨2, ![1, 2048]⟩
abbrev S2048x1 : Shape := ⟨2, ![2048, 1]⟩
abbrev S16x256x512 : Shape := ⟨3, ![16, 256, 512]⟩
abbrev S1x256 : Shape := ⟨2, ![1, 256]⟩
abbrev S1x256x1 : Shape := ⟨3, ![1, 256, 1]⟩

abbrev nBuf : Space → Nat
  | .hbm => 103
  | .vmem => 8
  | .smem => 0
  | _ => 0

abbrev bufTy : (tb : Table) → Fin (tcTables nBuf tb) → BufTy
  | .hbm, ⟨0, _⟩ => ⟨S64x2048x512, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048, .i32⟩
  | .hbm, ⟨5, _⟩ => ⟨S64x2048x1, .f32⟩
  | .hbm, ⟨6, _⟩ => ⟨S64x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .i32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048, .i32⟩
  | .hbm, ⟨47, _⟩ => ⟨S2048, .f32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048, .f32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S2048, .f32⟩
  | .hbm, ⟨88, _⟩ => ⟨S_, .f32⟩
  | .hbm, ⟨89, _⟩ => ⟨S2048, .f32⟩
  | .hbm, ⟨90, _⟩ => ⟨S2048, .i1⟩
  | .hbm, ⟨91, _⟩ => ⟨S_, .f32⟩
  | .hbm, ⟨92, _⟩ => ⟨S2048, .f32⟩
  | .hbm, ⟨93, _⟩ => ⟨S2048, .f32⟩
  | .hbm, ⟨94, _⟩ => ⟨S_, .f32⟩
  | .hbm, ⟨95, _⟩ => ⟨S2048, .f32⟩
  | .hbm, ⟨96, _⟩ => ⟨S2048, .f32⟩
  | .hbm, ⟨97, _⟩ => ⟨S_, .f32⟩
  | .hbm, ⟨98, _⟩ => ⟨S2048, .f32⟩
  | .hbm, ⟨99, _⟩ => ⟨S2048, .f32⟩
  | .hbm, ⟨100, _⟩ => ⟨S1x2048, .f32⟩
  | .hbm, ⟨101, _⟩ => ⟨S1x2048, .f32⟩
  | .hbm, ⟨102, _⟩ => ⟨S64x2048x512, .f32⟩
  | .local _ .vmem, ⟨0, _⟩ => ⟨S16x256x512, .f32⟩
  | .local _ .vmem, ⟨1, _⟩ => ⟨S16x256x512, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S16x256x512, .f32⟩
  | .local _ .vmem, ⟨7, _⟩ => ⟨S16x256x512, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_c_2 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_c_5 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_c_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_cst_12 : Ref sig .tc := ⟨.hbm, 88, rfl⟩
abbrev main_v48 : Ref sig .tc := ⟨.hbm, 89, rfl⟩
abbrev main_v49 : Ref sig .tc := ⟨.hbm, 90, rfl⟩
abbrev main_cst_13 : Ref sig .tc := ⟨.hbm, 91, rfl⟩
abbrev main_v50 : Ref sig .tc := ⟨.hbm, 92, rfl⟩
abbrev main_v51 : Ref sig .tc := ⟨.hbm, 93, rfl⟩
abbrev main_cst_14 : Ref sig .tc := ⟨.hbm, 94, rfl⟩
abbrev main_v52 : Ref sig .tc := ⟨.hbm, 95, rfl⟩
abbrev main_v53 : Ref sig .tc := ⟨.hbm, 96, rfl⟩
abbrev main_cst_15 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S64x2048x512_S64x2048x1_0_0_511 : S64x2048x512.Slices ![0, 0, 511] S64x2048x1
  shapeCasts_S64x2048x1_S64x2048 : S64x2048x1.ShapeCasts S64x2048
  reducesTo_S64x2048_S2048_d0 : S64x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S64x2048_0_1 : S1x2048.BroadcastsInDim S64x2048 (![0, 1] : Fin 2 → Fin S64x2048.rank)
  bcast_S2048_S2048x1_0 : S2048.BroadcastsInDim S2048x1 (![0] : Fin 1 → Fin S2048x1.rank)
  shapeCasts_S2048_S1x2048 : S2048.ShapeCasts S1x2048
  inb_S16x256x512_S16x256x512_0_0_0 : ∀ a, (![0, 0, 0] : Fin 3 → Nat) a + S16x256x512.size a ≤ S16x256x512.size a
  h_S16x256x512 : 0 < S16x256x512.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x256x1 : S1x256.ShapeCasts S1x256x1
  shapeCasts_S1x256x1_S1x256x1 : S1x256x1.ShapeCasts S1x256x1
  broadcasts_S1x256x1_S16x256x512 : S1x256x1.Broadcasts S16x256x512
  gather_S2048_S2048x1_S2048_n_0_n_n_0_1_1_wf : GatherDims.WF S2048 S2048x1 S2048 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S64x2048x512.size a
  hwx0_0 : ∀ i : grid0.Coords, EltTy.bits .f32 = 32 ∨ (Rect.block (s := S64x2048x512) S16x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x2048.size a
  hwx0_1 : ∀ i : grid0.Coords, EltTy.bits .f32 = 32 ∨ (Rect.block (s := S1x2048) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2048.size a
  hwx0_2 : ∀ i : grid0.Coords, EltTy.bits .f32 = 32 ∨ (Rect.block (s := S1x2048) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x512.size a ≤ S64x2048x512.size a
  hwx0_3 : ∀ i : grid0.Coords, EltTy.bits .f32 = 32 ∨ (Rect.block (s := S64x2048x512) S16x256x512.size (cc0_transform_3 i) (hinb0_3 i)).WholeWords (EltTy.packing .f32)

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

abbrev win0_0 : Pipeline.Window sig grid0 :=
  Pipeline.Window.ofSpec (Memref.whole main_arg0) S16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v58) S16x256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2048x512 : Shape := ⟨3, ![64, 2048, 512]⟩
abbrev S2048 : Shape := ⟨1, ![2048]⟩
abbrev S64x2048x1 : Shape := ⟨3, ![64, 2048, 1]⟩
abbrev S64x2048 : Shape := ⟨2, ![64, 2048]⟩
abbrev S_ : Shape := ⟨0, ![]⟩
abbrev S1x2048 : Shape := ⟨2, ![1, 2048]⟩
abbrev S2048x1 : Shape := ⟨2, ![2048, 1]⟩
abbrev S1x2048x1 : Shape := ⟨3, ![1, 2048, 1]⟩

abbrev nBuf : Space → Nat
  | .hbm => 100
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S2048, .f32⟩
  | .hbm, ⟨2, _⟩ => ⟨S2048, .f32⟩
  | .hbm, ⟨3, _⟩ => ⟨S2048, .i32⟩
  | .hbm, ⟨4, _⟩ => ⟨S2048, .i32⟩
  | .hbm, ⟨5, _⟩ => ⟨S64x2048x1, .f32⟩
  | .hbm, ⟨6, _⟩ => ⟨S64x2048, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .i32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S_, .f32⟩
  | .hbm, ⟨17, _⟩ => ⟨S1x2048, .f32⟩
  | .hbm, ⟨18, _⟩ => ⟨S1x2048, .f32⟩
  | .hbm, ⟨19, _⟩ => ⟨S64x2048, .f32⟩
  | .hbm, ⟨20, _⟩ => ⟨S64x2048, .f32⟩
  | .hbm, ⟨21, _⟩ => ⟨S64x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048, .f32⟩
  | .hbm, ⟨27, _⟩ => ⟨S2048, .f32⟩
  | .hbm, ⟨28, _⟩ => ⟨S2048, .f32⟩
  | .hbm, ⟨29, _⟩ => ⟨S_, .f32⟩
  | .hbm, ⟨30, _⟩ => ⟨S_, .i1⟩
  | .hbm, ⟨31, _⟩ => ⟨S_, .f32⟩
  | .hbm, ⟨32, _⟩ => ⟨S_, .f32⟩
  | .hbm, ⟨33, _⟩ => ⟨S2048, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .i32⟩
  | .hbm, ⟨39, _⟩ => ⟨S2048, .i32⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S2048, .i32⟩
  | .hbm, ⟨47, _⟩ => ⟨S2048, .f32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S2048x1, .i32⟩
  | .hbm, ⟨56, _⟩ => ⟨S2048, .f32⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S2048, .i32⟩
  | .hbm, ⟨62, _⟩ => ⟨S2048, .i32⟩
  | .hbm, ⟨63, _⟩ => ⟨S2048, .i32⟩
  | .hbm, ⟨64, _⟩ => ⟨S2048x1, .i32⟩
  | .hbm, ⟨65, _⟩ => ⟨S2048, .f32⟩
  | .hbm, ⟨66, _⟩ => ⟨S2048, .f32⟩
  | .hbm, ⟨67, _⟩ => ⟨S_, .f32⟩
  | .hbm, ⟨68, _⟩ => ⟨S2048, .f32⟩
  | .hbm, ⟨69, _⟩ => ⟨S2048, .f32⟩
  | .hbm, ⟨70, _⟩ => ⟨S_, .f32⟩
  | .hbm, ⟨71, _⟩ => ⟨S2048, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S2048, .f32⟩
  | .hbm, ⟨80, _⟩ => ⟨S2048, .f32⟩
  | .hbm, ⟨81, _⟩ => ⟨S2048, .f32⟩
  | .hbm, ⟨82, _⟩ => ⟨S2048, .f32⟩
  | .hbm, ⟨83, _⟩ => ⟨S2048, .f32⟩
  | .hbm, ⟨84, _⟩ => ⟨S_, .f32⟩
  | .hbm, ⟨85, _⟩ => ⟨S2048, .f32⟩
  | .hbm, ⟨86, _⟩ => ⟨S2048, .f32⟩
  | .hbm, ⟨87, _⟩ => ⟨S2048, .f32⟩
  | .hbm, ⟨88, _⟩ => ⟨S1x2048x1, .f32⟩
  | .hbm, ⟨89, _⟩ => ⟨S64x2048x512, .f32⟩
  | .hbm, ⟨90, _⟩ => ⟨S64x2048x512, .f32⟩
  | .hbm, ⟨91, _⟩ => ⟨S1x2048x1, .f32⟩
  | .hbm, ⟨92, _⟩ => ⟨S64x2048x512, .f32⟩
  | .hbm, ⟨93, _⟩ => ⟨S64x2048x512, .f32⟩
  | .hbm, ⟨94, _⟩ => ⟨S_, .f32⟩
  | .hbm, ⟨95, _⟩ => ⟨S2048, .f32⟩
  | .hbm, ⟨96, _⟩ => ⟨S2048, .i1⟩
  | .hbm, ⟨97, _⟩ => ⟨S1x2048x1, .i1⟩
  | .hbm, ⟨98, _⟩ => ⟨S64x2048x512, .i1⟩
  | .hbm, ⟨99, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_cst_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_cst_1 : Ref sig .tc := ⟨.hbm, 23, rfl⟩
abbrev main_call0_v8 : Ref sig .tc := ⟨.hbm, 24, rfl⟩
abbrev main_call0_cst_2 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_cst_3 : Ref sig .tc := ⟨.hbm, 29, rfl⟩
abbrev main_call0_v12 : Ref sig .tc := ⟨.hbm, 30, rfl⟩
abbrev main_call0_cst_4 : Ref sig .tc := ⟨.hbm, 31, rfl⟩
abbrev main_call0_call0_v0 : Ref sig .tc := ⟨.hbm, 32, rfl⟩
abbrev main_call0_call0_v1 : Ref sig .tc := ⟨.hbm, 33, rfl⟩
abbrev main_v5 : Ref sig .tc := ⟨.hbm, 34, rfl⟩
abbrev main_cst_1 : Ref sig .tc := ⟨.hbm, 35, rfl⟩
abbrev main_v6 : Ref sig .tc := ⟨.hbm, 36, rfl⟩
abbrev main_v7 : Ref sig .tc := ⟨.hbm, 37, rfl⟩
abbrev main_c_2 : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_c_4 : Ref sig .tc := ⟨.hbm, 48, rfl⟩
abbrev main_v16 : Ref sig .tc := ⟨.hbm, 49, rfl⟩
abbrev main_v17 : Ref sig .tc := ⟨.hbm, 50, rfl⟩
abbrev main_c_5 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_c_6 : Ref sig .tc := ⟨.hbm, 57, rfl⟩
abbrev main_v23 : Ref sig .tc := ⟨.hbm, 58, rfl⟩
abbrev main_v24 : Ref sig .tc := ⟨.hbm, 59, rfl⟩
abbrev main_c_7 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_8 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_10 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_12 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call1_v0 : Ref sig .tc := ⟨.hbm, 98, rfl⟩
abbrev main_v57 : Ref sig .tc := ⟨.hbm, 99, rfl⟩

abbrev nD : Nat := 1
abbrev τ : Topo := Topo.v7x

variable {F : FTy → Type} [FloatOps F]

class Facts₀ : Prop where
  slices_S64x2048x512_S64x2048x1_0_0_511 : S64x2048x512.Slices ![0, 0, 511] S64x2048x1
  shapeCasts_S64x2048x1_S64x2048 : S64x2048x1.ShapeCasts S64x2048
  reducesTo_S64x2048_S2048_d0 : S64x2048.ReducesTo [0] S2048
  h_S_ : 0 < S_.numel
  bcast_S_S2048 : S_.BroadcastsInDim S2048 (![] : Fin 0 → Fin S2048.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S64x2048_0_1 : S1x2048.BroadcastsInDim S64x2048 (![0, 1] : Fin 2 → Fin S64x2048.rank)
  bcast_S2048_S2048x1_0 : S2048.BroadcastsInDim S2048x1 (![0] : Fin 1 → Fin S2048x1.rank)
  bcast_S2048_S1x2048x1_1 : S2048.BroadcastsInDim S1x2048x1 (![1] : Fin 1 → Fin S1x2048x1.rank)
  bcast_S1x2048x1_S64x2048x512_0_1_2 : S1x2048x1.BroadcastsInDim S64x2048x512 (![0, 1, 2] : Fin 3 → Fin S64x2048x512.rank)
  gather_S2048_S2048x1_S2048_n_0_n_n_0_1_1_wf : GatherDims.WF S2048 S2048x1 S2048 [] [0] [] [0] [] 1 ![1]

variable [Facts₀]

def gather_S2048_S2048x1_S2048_n_0_n_n_0_1_1 : GatherDims S2048 S2048x1 S2048 where
  offsetDims := []
  collapsedSliceDims := [0]
  operandBatchingDims := []
  startIndicesBatchingDims := []
  startIndexMap := [0]
  indexVectorDim := 1
  sliceSizes := ![1]
  wf := gather_S2048_S2048x1_S2048_n_0_n_n_0_1_1_wf

class Facts : Prop extends Facts₀ where

variable [Facts]
-- ==== Proof.KernelArray.lean ====
/-
  The kernel's result array after the run, as ONE function of the arrays the region finds: at index (b, n, h) the
  value minus the shift of column n, times the reciprocal scale of column n. Each grid point (i, j) writes the
  16 × 256 × 512 block at rows 16 i …, columns 256 j …; the 32 blocks tile the array.
-/
import proofs.«126964_j40862318854702_1_alg».proof.Proof.Gen.KernelIdeal.Value
import Idealize.ShloMosaic.Lib.Pipeline.Value

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The column of an index of the values array, as an index of a 1 × 2048 row. -/
abbrev col (i : S64x2048x512.Idx) : S1x2048.Idx := fun a => match a with
  | ⟨0, _⟩ => ⟨0, by show 0 < 1; omega⟩
  | ⟨1, _⟩ => ⟨(i 1).val, by have h1 : (i 1).val < 2048 := (i 1).isLt; show (i 1).val < 2048; omega⟩

/-- The affine map of the kernel, index by index: the value minus its column's shift, times its column's reciprocal scale. -/
abbrev G (x : S64x2048x512.Idx → Elt F .f32) (w1 w2 : S1x2048.Idx → Elt F .f32) : S64x2048x512.Idx → Elt F .f32 :=
  fun i => FloatOps.mulf (FloatOps.subf (x i) (w1 (col i))) (w2 (col i))

/-- The values window's block at a grid point, read index by index off whatever the arrays hold. -/
theorem valuesBlock_apply (c : Dev nD) (W : (b : Ref sig .tc) → Buf (Elt F) ((c : Thread nD τ).loc b))
    (t : Fin cfg0.N) (x : S16x256x512.Idx) :
    ((cfg0.win 0).blk t).view.read (Elt F) (W (Pipeline.arrRef spec0 0)) x
      = W main_arg0 (((cfg0.win 0).blk t).view.emb x) := by
  rw [View.read_apply]; rfl

/-- The shift row's block at a grid point, read index by index off whatever the arrays hold. -/
theorem shiftBlock_apply (c : Dev nD) (W : (b : Ref sig .tc) → Buf (Elt F) ((c : Thread nD τ).loc b))
    (t : Fin cfg0.N) (x : S1x256.Idx) :
    ((cfg0.win 1).blk t).view.read (Elt F) (W (Pipeline.arrRef spec0 1)) x
      = W main_v56 (((cfg0.win 1).blk t).view.emb x) := by
  rw [View.read_apply]; rfl

/-- The reciprocal-scale row's block at a grid point, read index by index off whatever the arrays hold. -/
theorem scaleBlock_apply (c : Dev nD) (W : (b : Ref sig .tc) → Buf (Elt F) ((c : Thread nD τ).loc b))
    (t : Fin cfg0.N) (x : S1x256.Idx) :
    ((cfg0.win 2).blk t).view.read (Elt F) (W (Pipeline.arrRef spec0 2)) x
      = W main_v57 (((cfg0.win 2).blk t).view.emb x) := by
  rw [View.read_apply]; rfl

/-- The zero offsets of a rank-3 load or store, however spelt. -/
theorem zeros3 : (![0, 0, 0] : Fin 3 → Nat) = fun _ => 0 := funext fun a => by fin_cases a <;> rfl

/-- The zero offsets of a rank-2 load, however spelt. -/
theorem zeros2 : (![0, 0] : Fin 2 → Nat) = fun _ => 0 := funext fun a => by fin_cases a <;> rfl

/-- The block indices, decided over the 32 grid points: the values window moves with the result window on every
    axis; each row window stays at row block 0 and moves with the result window's column block; the result's block
    indices stay in 4 × 8 × 1. -/
theorem blockIndex_facts : ∀ t : Fin cfg0.N,
    win0_0.index t (0 : Fin 3) = win0_3.index t (0 : Fin 3)
    ∧ win0_0.index t (1 : Fin 3) = win0_3.index t (1 : Fin 3)
    ∧ win0_0.index t (2 : Fin 3) = win0_3.index t (2 : Fin 3)
    ∧ win0_1.index t (0 : Fin 2) = 0
    ∧ win0_1.index t (1 : Fin 2) = win0_3.index t (1 : Fin 3)
    ∧ win0_2.index t (0 : Fin 2) = 0
    ∧ win0_2.index t (1 : Fin 2) = win0_3.index t (1 : Fin 3)
    ∧ win0_3.index t (0 : Fin 3) ≤ 3 ∧ win0_3.index t (1 : Fin 3) ≤ 7 ∧ win0_3.index t (2 : Fin 3) = 0 :=
  (by decide +kernel : ∀ t : Fin grid0.N, _)

/-- Every block of the 4 × 8 × 1 tiling is some grid point's. -/
theorem blockIndex_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- What grid point `t` writes back is block `t` of the affine map of the arrays as the region finds them. -/
theorem flushed_eq (c : Dev nD) (t : Fin cfg0.N) :
    (dats m 0 c).flushed 3 t
      = ((cfg0.win 3).blk t).view.read (Elt F) (G (V m c main_arg0) (V m c main_v56) (V m c main_v57)) := by
  rw [flushed3]
  unfold out0_3
  simp only [View.ld_unit_zero (S := S16x256x512) zeros3, View.ld_unit_zero (S := S1x256) zeros2]
  obtain ⟨e0, e1, e2, e3, e4, e5, e6, -, -, -⟩ := blockIndex_facts t
  refine funext fun (y : S16x256x512.Idx) => ?_
  have hy0 : (y 0).val < 16 := (y 0).isLt
  have hy1 : (y 1).val < 256 := (y 1).isLt
  have hy2 : (y 2).val < 512 := (y 2).isLt
  show View.canon [⟨r0_0, k0_pay1 (iblk m c 0 t) (iblk m c 1 t) (iblk m c 2 t)⟩] y
      = G (V m c main_arg0) (V m c main_v56) (V m c main_v57) (((cfg0.win 3).blk t).view.emb y)
  rw [canon3_eq]
  show FloatOps.mulf (FloatOps.subf (iblk m c 0 t (ix3_0 y)) (iblk m c 1 t (ix3_1 y))) (iblk m c 2 t (ix3_2 y))
      = FloatOps.mulf (FloatOps.subf (V m c main_arg0 (((cfg0.win 3).blk t).view.emb y))
        (V m c main_v56 (col (((cfg0.win 3).blk t).view.emb y))))
        (V m c main_v57 (col (((cfg0.win 3).blk t).view.emb y)))
  have r0 : iblk m c 0 t (ix3_0 y) = V m c main_arg0 (((cfg0.win 0).blk t).view.emb (ix3_0 y)) := by
    unfold iblk; exact valuesBlock_apply c (V m c) t (ix3_0 y)
  have r1 : iblk m c 1 t (ix3_1 y) = V m c main_v56 (((cfg0.win 1).blk t).view.emb (ix3_1 y)) := by
    unfold iblk; exact shiftBlock_apply c (V m c) t (ix3_1 y)
  have r2 : iblk m c 2 t (ix3_2 y) = V m c main_v57 (((cfg0.win 2).blk t).view.emb (ix3_2 y)) := by
    unfold iblk; exact scaleBlock_apply c (V m c) t (ix3_2 y)
  rw [r0, r1, r2]
  have h0 : ((cfg0.win 0).blk t).view.emb (ix3_0 y) = ((cfg0.win 3).blk t).view.emb y := by
    funext a; apply Fin.ext
    match a with
    | ⟨0, _⟩ => show win0_0.index t (0 : Fin 3) * 16 + 1 * (y 0).val = win0_3.index t (0 : Fin 3) * 16 + 1 * (y 0).val; omega
    | ⟨1, _⟩ => show win0_0.index t (1 : Fin 3) * 256 + 1 * (y 1).val = win0_3.index t (1 : Fin 3) * 256 + 1 * (y 1).val; omega
    | ⟨2, _⟩ => show win0_0.index t (2 : Fin 3) * 512 + 1 * (y 2).val = win0_3.index t (2 : Fin 3) * 512 + 1 * (y 2).val; omega
  have h1 : ((cfg0.win 1).blk t).view.emb (ix3_1 y) = col (((cfg0.win 3).blk t).view.emb y) := by
    funext a; apply Fin.ext
    match a with
    | ⟨0, _⟩ => show win0_1.index t (0 : Fin 2) * 1 + 1 * 0 = 0; omega
    | ⟨1, _⟩ => show win0_1.index t (1 : Fin 2) * 256 + 1 * (y 1).val = win0_3.index t (1 : Fin 3) * 256 + 1 * (y 1).val; omega
  have h2 : ((cfg0.win 2).blk t).view.emb (ix3_2 y) = col (((cfg0.win 3).blk t).view.emb y) := by
    funext a; apply Fin.ext
    match a with
    | ⟨0, _⟩ => show win0_2.index t (0 : Fin 2) * 1 + 1 * 0 = 0; omega
    | ⟨1, _⟩ => show win0_2.index t (1 : Fin 2) * 256 + 1 * (y 1).val = win0_3.index t (1 : Fin 3) * 256 + 1 * (y 1).val; omega
  rw [h0, h1, h2]

/-- An index of the result array is in point `t`'s block iff each coordinate is in the block's range on its axis. -/
theorem mem_block (t : Fin cfg0.N) (i : S64x2048x512.Idx) :
    i ∈ ((cfg0.win 3).blk t).view.set ↔ ∀ a : Fin 3, win0_3.index t a * S16x256x512.size a ≤ (i a).val
      ∧ (i a).val < win0_3.index t a * S16x256x512.size a + S16x256x512.size a := by
  show i ∈ ((View.whole main_v58).slice (win0_3.rect t)).set ↔ _
  rw [View.set_slice_whole, Rect.mem_set_unit]
  exact Iff.rfl

/-- The 32 blocks tile the array: index (b, n, h) is in the block of the point whose block indices are
    (b / 16, n / 256, 0). -/
theorem covered (i : S64x2048x512.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 512 := (i 2).isLt
  obtain ⟨t, ht⟩ := blockIndex_onto ⟨(i 0).val / 16, by omega⟩ ⟨(i 1).val / 256, by omega⟩
  have q0 : win0_3.index t (0 : Fin 3) = (i 0).val / 16 := congrFun ht 0
  have q1 : win0_3.index t (1 : Fin 3) = (i 1).val / 256 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 256 ≤ (i 1).val ∧ (i 1).val < win0_3.index t (1 : Fin 3) * 256 + 256; omega
  | ⟨2, _⟩ => show win0_3.index t (2 : Fin 3) * 512 ≤ (i 2).val ∧ (i 2).val < win0_3.index t (2 : Fin 3) * 512 + 512; omega

/-- The result array after the run is that map of the values and of the two rows the host operations wrote. -/
theorem final (c : Dev nD) :
    (dats m 0 c).arrAt 3 cfg0.N = G (m ((c : Thread nD τ).loc main_arg0)) (V m c main_v56) (V m c main_v57) := by
  have e := (dats m 0 c).arrAt_eq_of_cover 3 (G (V m c main_arg0) (V m c main_v56) (V m c main_v57))
    (fun t _ => flushed_eq m c t) covered
  rw [V_main_arg0] at e
  exact e

/-- The frame run re-posted: the result array at that map, the arguments unchanged. -/
theorem run : θ_run defs (onTc (τ := τ) (main (F := F))) ⟨m, fun _ => 0, ρ⟩ fun r => ∀ c : Dev nD,
      r.2.mem ((c : Thread nD τ).loc main_v58) = G (m ((c : Thread nD τ).loc main_arg0)) (V m c main_v56) (V m c main_v57)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.ArrayValue

end
-- ==== Proof.Stats.lean ====
/-
  The per-column statistics both programs compute on the host, each value ONE function of the five argument
  arrays: the batch's last time step, its mean and its (biased) variance per column; the running count, mean and sum
  of squared deviations gathered at the signature ids; their merge (total count, merged mean, merged sum of squared
  deviations, merged variance plus ε, its square root); and the mask of the columns that are normalized (total
  count at least two). The reference's result is a function of these, and so are the two small arrays the kernel's
  pallas_call reads beside the values.
-/
import proofs.«126964_j40862318854702_1_alg».proof.Proof.Gen.ReferenceIdeal
import Idealize.ShloMosaic.PureOps

noncomputable section

namespace Cert.Stats

open Idealize.ShloMosaic Cert.ReferenceIdeal Cert.ReferenceIdeal.Facts₀

variable {F : FTy → Type} [FloatOps F]

/-- A scalar word on every column. -/
abbrev splat (w : BitVec 32) : FVec F S2048 .f32 := broadcastInDim S2048 ![] bcast_S_S2048 (constant (F := F) S_ .f32 w)

/-- The batch's last time step: `values[:, :, 511]`, as 64 × 2048. -/
def last (x : FVec F S64x2048x512 .f32) : FVec F S64x2048 .f32 :=
  shapeCast S64x2048 (extractStridedSlice S64x2048x1 ![0, 0, 511] x slices_S64x2048x512_S64x2048x1_0_0_511) shapeCasts_S64x2048x1_S64x2048

/-- The column sums of the last time step. -/
def colSum (x : FVec F S64x2048x512 .f32) : FVec F S2048 .f32 :=
  Host.reduceAdd (last x) (constant (F := F) S_ .f32 0x00000000#32) reducesTo_S64x2048_S2048_d0 h_S_

/-- The batch mean per column: the column sum over 64. -/
def meanNew (x : FVec F S64x2048x512 .f32) : FVec F S2048 .f32 := Host.divf (colSum x) (splat 0x42800000#32)

/-- The deviations from the column mean, as the variance routine computes them (its own mean, broadcast down the batch). -/
def centered (x : FVec F S64x2048x512 .f32) : FVec F S64x2048 .f32 :=
  subf (last x) (broadcastInDim S64x2048 ![0, 1] bcast_S1x2048_S64x2048_0_1
    (Host.divf (broadcastInDim S1x2048 ![1] bcast_S2048_S1x2048_1 (colSum x))
      (broadcastInDim S1x2048 ![] bcast_S_S1x2048 (constant (F := F) S_ .f32 0x42800000#32))))

/-- The column sums of the squared deviations. -/
def sqSum (x : FVec F S64x2048x512 .f32) : FVec F S2048 .f32 :=
  Host.reduceAdd (mulf (centered x) (centered x)) (constant (F := F) S_ .f32 0x00000000#32) reducesTo_S64x2048_S2048_d0 h_S_

/-- The variance routine's divisor: 64 minus the (zero) degrees of freedom, a scalar. -/
def dofDen : FVec F S_ .f32 := subf (constant (F := F) S_ .f32 0x42800000#32) (sitofp (F := F) .f32 (constantI S_ 32 0#32))

/-- The batch variance per column as the variance routine returns it: the sum of squared deviations over its divisor
    where the divisor is positive, the NaN word otherwise. -/
def varNew (x : FVec F S64x2048x512 .f32) : FVec F S2048 .f32 :=
  select (broadcastInDim S2048 ![] bcast_S_S2048 (cmpf .ogt dofDen (constant (F := F) S_ .f32 0x00000000#32)))
    (Host.divf (sqSum x) (broadcastInDim S2048 ![] bcast_S_S2048 dofDen))
    (broadcastInDim S2048 ![] bcast_S_S2048 (id (constant (F := F) S_ .f32 0x7FC00000#32)))

/-- The signature ids as gather indices: a negative id counted from the end, then one index per column. -/
def gIdx (sid : IVec S2048 32) : IVec S2048x1 32 :=
  broadcastInDim S2048x1 ![0] bcast_S2048_S2048x1_0
    (select (cmpi .slt sid (broadcastInDim S2048 ![] bcast_S_S2048 (constantI S_ 32 0#32)))
      (addi sid (broadcastInDim S2048 ![] bcast_S_S2048 (constantI S_ 32 2048#32))) sid)

/-- The running count per column, as a float. -/
def cntF (cnt sid : IVec S2048 32) : FVec F S2048 .f32 :=
  sitofp (F := F) .f32 (Host.gather gather_S2048_S2048x1_S2048_n_0_n_n_0_1_1 cnt (gIdx sid))

/-- A running statistic (mean, or sum of squared deviations) gathered per column. -/
def gath (a : FVec F S2048 .f32) (sid : IVec S2048 32) : FVec F S2048 .f32 :=
  Host.gather gather_S2048_S2048x1_S2048_n_0_n_n_0_1_1 a (gIdx sid)

/-- The batch mean minus the running mean. -/
def delta (x : FVec F S64x2048x512 .f32) (mu : FVec F S2048 .f32) (sid : IVec S2048 32) : FVec F S2048 .f32 :=
  subf (meanNew x) (gath mu sid)

/-- The merged count: the running count plus 64. -/
def total (cnt sid : IVec S2048 32) : FVec F S2048 .f32 := addf (cntF cnt sid) (splat 0x42800000#32)

/-- The merged mean: the running mean plus the difference weighted by 64 over the merged count. -/
def mMerged (x : FVec F S64x2048x512 .f32) (mu : FVec F S2048 .f32) (cnt sid : IVec S2048 32) : FVec F S2048 .f32 :=
  addf (gath mu sid) (mulf (delta x mu sid) (Host.divf (splat 0x42800000#32) (total cnt sid)))

/-- The merged variance plus ε, over a given batch variance `vn`: the merged sum of squared deviations
    (running + 64 · batch variance + difference² · running count · 64 / merged count) over the merged count, plus ε. -/
def varEpsOf (vn : FVec F S2048 .f32) (x : FVec F S64x2048x512 .f32) (mu M2 : FVec F S2048 .f32) (cnt sid : IVec S2048 32) :
    FVec F S2048 .f32 :=
  addf (Host.divf
      (addf (addf (gath M2 sid) (mulf vn (splat 0x42800000#32)))
        (Host.divf (mulf (mulf (mulf (delta x mu sid) (delta x mu sid)) (cntF cnt sid)) (splat 0x42800000#32)) (total cnt sid)))
      (total cnt sid))
    (splat 0x322BCC77#32)

/-- The merged variance plus ε, which the reference takes the square root of. -/
def varEps (x : FVec F S64x2048x512 .f32) (mu M2 : FVec F S2048 .f32) (cnt sid : IVec S2048 32) : FVec F S2048 .f32 :=
  varEpsOf (varNew x) x mu M2 cnt sid

/-- The merged standard deviation. -/
def std (x : FVec F S64x2048x512 .f32) (mu M2 : FVec F S2048 .f32) (cnt sid : IVec S2048 32) : FVec F S2048 .f32 :=
  Host.sqrt (varEps x mu M2 cnt sid)

/-- The columns that are normalized: merged count at least two. -/
def ok (cnt sid : IVec S2048 32) : IVec S2048 1 := cmpf .oge (total (F := F) cnt sid) (splat 0x40000000#32)

/-- A column statistic laid over the whole 64 × 2048 × 512 array. -/
abbrev overAll {α : Type} (bc1 : S2048.BroadcastsInDim S1x2048x1 (![1] : Fin 1 → Fin S1x2048x1.rank))
    (bc3 : S1x2048x1.BroadcastsInDim S64x2048x512 (![0, 1, 2] : Fin 3 → Fin S64x2048x512.rank)) (a : S2048.Idx → α) : S64x2048x512.Idx → α :=
  broadcastInDim S64x2048x512 ![0, 1, 2] bc3 (broadcastInDim S1x2048x1 ![1] bc1 a)

/-- The reference's result: where the column is normalized, the value minus the merged mean over the merged standard
    deviation; elsewhere the value. -/
def refOut (x : FVec F S64x2048x512 .f32) (mu M2 : FVec F S2048 .f32) (cnt sid : IVec S2048 32) : FVec F S64x2048x512 .f32 :=
  select (overAll bcast_S2048_S1x2048x1_1 bcast_S1x2048x1_S64x2048x512_0_1_2 (ok (F := F) cnt sid))
    (Host.divf (subf x (overAll bcast_S2048_S1x2048x1_1 bcast_S1x2048x1_S64x2048x512_0_1_2 (mMerged x mu cnt sid)))
      (overAll bcast_S2048_S1x2048x1_1 bcast_S1x2048x1_S64x2048x512_0_1_2 (std x mu M2 cnt sid)))
    x

/-- The kernel's shift per column: the merged mean where the column is normalized, zero elsewhere. -/
def shift (x : FVec F S64x2048x512 .f32) (mu : FVec F S2048 .f32) (cnt sid : IVec S2048 32) : FVec F S2048 .f32 :=
  select (ok (F := F) cnt sid) (mMerged x mu cnt sid) (splat 0x00000000#32)

/-- The kernel's reciprocal scale per column: one over (the merged standard deviation where the column is normalized,
    one elsewhere). -/
def invScale (x : FVec F S64x2048x512 .f32) (mu M2 : FVec F S2048 .f32) (cnt sid : IVec S2048 32) : FVec F S2048 .f32 :=
  Host.divf (splat 0x3F800000#32) (select (ok (F := F) cnt sid) (std x mu M2 cnt sid) (splat 0x3F800000#32))

end Cert.Stats

end
-- ==== Proof.KernelHost.lean ====
/-
  What the kernel's host operations leave in the two small arrays its pallas_call reads beside the values: the shift
  and the reciprocal scale per column (the statistics of Stats.lean), each reshaped to 1 × 2048.
-/
import proofs.«126964_j40862318854702_1_alg».proof.Proof.Gen.KernelIdeal.Frame
import proofs.«126964_j40862318854702_1_alg».proof.Proof.Stats
import Idealize.ShloMosaic.Lib.StableHlo.Run

noncomputable section

namespace Cert.KernelIdeal.HostValue

open Cert.KernelIdeal Cert.KernelIdeal.Gen Cert.KernelIdeal.Facts₀
open Idealize.ShloMosaic Idealize.ShloMosaic.TcCoe Idealize.ShloMosaic.StableHlo Idealize.SL.Sem

variable {F : FTy → Type} [FloatOps F]
variable (m : (ℓ : Loc nD τ sig) → Buf (Elt F) ℓ)

set_option maxHeartbeats 4000000 in
/-- The shift array the region finds: the per-column shift of the argument arrays, as one row. -/
theorem shift_eq (c : Dev nD) :
    (V m c main_v56 : S1x2048.Idx → Elt F .f32) =
      shapeCast S1x2048 (Cert.Stats.shift (F := F) (m (c, Proc.tc.devRef main_arg0)) (m (c, Proc.tc.devRef main_arg1))
        (m (c, Proc.tc.devRef main_arg3)) (m (c, Proc.tc.devRef main_arg4))) Facts₀.shapeCasts_S2048_S1x2048 := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

set_option maxHeartbeats 4000000 in
/-- The reciprocal-scale array the region finds: the per-column reciprocal scale of the argument arrays, as one row. -/
theorem invScale_eq (c : Dev nD) :
    (V m c main_v57 : S1x2048.Idx → Elt F .f32) =
      shapeCast S1x2048 (Cert.Stats.invScale (F := F) (m (c, Proc.tc.devRef main_arg0)) (m (c, Proc.tc.devRef main_arg1))
        (m (c, Proc.tc.devRef main_arg2)) (m (c, Proc.tc.devRef main_arg3)) (m (c, Proc.tc.devRef main_arg4))) Facts₀.shapeCasts_S2048_S1x2048 := by
  dsimp only [V]
  simp only [hostOps0, hostOps0_1, hostOps0_2, hostOps0_3, hostOps0_4, hostOps0_5, hostOps0_6, List.flatten_cons, List.flatten_nil,
    List.append_nil, List.cons_append, List.nil_append]
  after_results_simp
  rfl

end Cert.KernelIdeal.HostValue

end
-- ==== Proof.RefRun.lean ====
/-
  The reference's run, read back: its @main is a straight line of host operations (the variance routine and the two
  selects written out at their calls), so every weakly fair execution ends with the result array at the reference's
  function of the argument arrays (Stats.lean `refOut`) and the arguments unchanged.
-/
import proofs.«126964_j40862318854702_1_alg».proof.Proof.Gen.ReferenceIdeal
import proofs.«126964_j40862318854702_1_alg».proof.Proof.Stats
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 95 operations, in order, each callee's operations written out at its call over the call's own buffers:
    the first eight of @main (the last time step, its column sums and the batch mean, the zero degrees of freedom);
    the variance routine's nineteen and, inside it, its select's three; @main's next sixty-three (the gathers of the
    running statistics at the signature ids, the merge, the merged standard deviation, the two statistics laid over
    the whole array, the subtraction, the division, the comparison of the merged count with two and its first
    broadcast); and the closing select's two. -/
abbrev ops : List (HloOp τ sig (Elt F)) :=
  [ unary main_arg0 main_v0 ((extractStridedSlice S64x2048x1 ![0, 0, 511] · slices_S64x2048x512_S64x2048x1_0_0_511) : (⟨S64x2048x512, .f32⟩ : BufTy).Contents (Elt F) → (⟨S64x2048x1, .f32⟩ : BufTy).Contents (Elt F)),
    reshape main_v0 main_v1 rfl shapeCasts_S64x2048x1_S64x2048,
    nullary main_cst (constant S_ .f32 0x00000000#32),
    binary main_v1 main_cst main_v2 ((fun x v => Host.reduceAdd x v reducesTo_S64x2048_S2048_d0 h_S_) : (⟨S64x2048, .f32⟩ : BufTy).Contents (Elt F) → (⟨S_, .f32⟩ : BufTy).Contents (Elt F) → (⟨S2048, .f32⟩ : BufTy).Contents (Elt F)),
    nullary main_cst_0 (constant S_ .f32 0x42800000#32),
    unary main_cst_0 main_v3 (broadcastInDim S2048 ![] bcast_S_S2048 : (⟨S_, .f32⟩ : BufTy).Contents (Elt F) → (⟨S2048, .f32⟩ : BufTy).Contents (Elt F)),
    binary main_v2 main_v3 main_v4 (Host.divf : (⟨S2048, .f32⟩ : BufTy).Contents (Elt F) → (⟨S2048, .f32⟩ : BufTy).Contents (Elt F) → (⟨S2048, .f32⟩ : BufTy).Contents (Elt F)),
    nullary main_c (constantI S_ 32 0#32),
    TRef.nullary (.of main_call0_cst : TRef sig ⟨S_, .f32⟩) (constant S_ .f32 0x00000000#32),
    TRef.binary (.of main_v1 : TRef sig ⟨S64x2048, .f32⟩) (.of main_call0_cst : TRef sig ⟨S_, .f32⟩) (.of main_call0_v0 : TRef sig ⟨S2048, .f32⟩) (fun x v => Host.reduceAdd x v reducesTo_S64x2048_S2048_d0 h_S_),
    TRef.unary (.of main_call0_v0 : TRef sig ⟨S2048, .f32⟩) (.of main_call0_v1 : TRef sig ⟨S1x2048, .f32⟩) (broadcastInDim S1x2048 ![1] bcast_S2048_S1x2048_1),
    TRef.nullary (.of main_call0_cst_0 : TRef sig ⟨S_, .f32⟩) (constant S_ .f32 0x42800000#32),
    TRef.unary (.of main_call0_cst_0 : TRef sig ⟨S_, .f32⟩) (.of main_call0_v2 : TRef sig ⟨S1x2048, .f32⟩) (broadcastInDim S1x2048 ![] bcast_S_S1x2048),
    TRef.binary (.of main_call0_v1 : TRef sig ⟨S1x2048, .f32⟩) (.of main_call0_v2 : TRef sig ⟨S1x2048, .f32⟩) (.of main_call0_v3 : TRef sig ⟨S1x2048, .f32⟩) Host.divf,
    TRef.unary (.of main_call0_v3 : TRef sig ⟨S1x2048, .f32⟩) (.of main_call0_v4 : TRef sig ⟨S64x2048, .f32⟩) (broadcastInDim S64x2048 ![0, 1] bcast_S1x2048_S64x2048_0_1),
    TRef.binary (.of main_v1 : TRef sig ⟨S64x2048, .f32⟩) (.of main_call0_v4 : TRef sig ⟨S64x2048, .f32⟩) (.of main_call0_v5 : TRef sig ⟨S64x2048, .f32⟩) subf,
    TRef.binary (.of main_call0_v5 : TRef sig ⟨S64x2048, .f32⟩) (.of main_call0_v5 : TRef sig ⟨S64x2048, .f32⟩) (.of main_call0_v6 : TRef sig ⟨S64x2048, .f32⟩) mulf,
    TRef.unary (.of main_c : TRef sig ⟨S_, .i32⟩) (.of main_call0_v7 : TRef sig ⟨S_, .f32⟩) (sitofp .f32),
    TRef.nullary (.of main_call0_cst_1 : TRef sig ⟨S_, .f32⟩) (constant S_ .f32 0x42800000#32),
    TRef.binary (.of main_call0_cst_1 : TRef sig ⟨S_, .f32⟩) (.of main_call0_v7 : TRef sig ⟨S_, .f32⟩) (.of main_call0_v8 : TRef sig ⟨S_, .f32⟩) subf,
    TRef.nullary (.of main_call0_cst_2 : TRef sig ⟨S_, .f32⟩) (constant S_ .f32 0x00000000#32),
    TRef.binary (.of main_call0_v6 : TRef sig ⟨S64x2048, .f32⟩) (.of main_call0_cst_2 : TRef sig ⟨S_, .f32⟩) (.of main_call0_v9 : TRef sig ⟨S2048, .f32⟩) (fun x v => Host.reduceAdd x v reducesTo_S64x2048_S2048_d0 h_S_),
    TRef.unary (.of main_call0_v8 : TRef sig ⟨S_, .f32⟩) (.of main_call0_v10 : TRef sig ⟨S2048, .f32⟩) (broadcastInDim S2048 ![] bcast_S_S2048),
    TRef.binary (.of main_call0_v9 : TRef sig ⟨S2048, .f32⟩) (.of main_call0_v10 : TRef sig ⟨S2048, .f32⟩) (.of main_call0_v11 : TRef sig ⟨S2048, .f32⟩) Host.divf,
    TRef.nullary (.of main_call0_cst_3 : TRef sig ⟨S_, .f32⟩) (constant S_ .f32 0x00000000#32),
    TRef.binary (.of main_call0_v8 : TRef sig ⟨S_, .f32⟩) (.of main_call0_cst_3 : TRef sig ⟨S_, .f32⟩) (.of main_call0_v12 : TRef sig ⟨S_, .i1⟩) (cmpf .ogt),
    TRef.nullary (.of main_call0_cst_4 : TRef sig ⟨S_, .f32⟩) (constant S_ .f32 0x7FC00000#32),
    TRef.unary (.of main_call0_cst_4 : TRef sig ⟨S_, .f32⟩) (.of main_call0_call0_v0 : TRef sig ⟨S_, .f32⟩) id,
    TRef.unary (.of main_call0_call0_v0 : TRef sig ⟨S_, .f32⟩) (.of main_call0_call0_v1 : TRef sig ⟨S2048, .f32⟩) (broadcastInDim S2048 ![] bcast_S_S2048),
    TRef.ternary (.of main_call0_v12 : TRef sig ⟨S_, .i1⟩) (.of main_call0_v11 : TRef sig ⟨S2048, .f32⟩) (.of main_call0_call0_v1 : TRef sig ⟨S2048, .f32⟩) (.of main_v5 : TRef sig ⟨S2048, .f32⟩) (fun p a b => select (broadcastInDim S2048 ![] bcast_S_S2048 p) a b),
    nullary main_cst_1 (constant S_ .f32 0x42800000#32),
    unary main_cst_1 main_v6 (broadcastInDim S2048 ![] bcast_S_S2048 : (⟨S_, .f32⟩ : BufTy).Contents (Elt F) → (⟨S2048, .f32⟩ : BufTy).Contents (Elt F)),
    binary main_v5 main_v6 main_v7 (mulf : (⟨S2048, .f32⟩ : BufTy).Contents (Elt F) → (⟨S2048, .f32⟩ : BufTy).Contents (Elt F) → (⟨S2048, .f32⟩ : BufTy).Contents (Elt F)),
    nullary main_c_2 (constantI S_ 32 0#32),
    unary main_c_2 main_v8 (broadcastInDim S2048 ![] bcast_S_S2048 : (⟨S_, .i32⟩ : BufTy).Contents (Elt F) → (⟨S2048, .i32⟩ : BufTy).Contents (Elt F)),
    binary main_arg4 main_v8 main_v9 (cmpi .slt : (⟨S2048, .i32⟩ : BufTy).Contents (Elt F) → (⟨S2048, .i32⟩ : BufTy).Contents (Elt F) → (⟨S2048, .i1⟩ : BufTy).Contents (Elt F)),
    nullary main_c_3 (constantI S_ 32 2048#32),
    unary main_c_3 main_v10 (broadcastInDim S2048 ![] bcast_S_S2048 : (⟨S_, .i32⟩ : BufTy).Contents (Elt F) → (⟨S2048, .i32⟩ : BufTy).Contents (Elt F)),
    binary main_arg4 main_v10 main_v11 (addi : (⟨S2048, .i32⟩ : BufTy).Contents (Elt F) → (⟨S2048, .i32⟩ : BufTy).Contents (Elt F) → (⟨S2048, .i32⟩ : BufTy).Contents (Elt F)),
    ternary main_v9 main_v11 main_arg4 main_v12 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v12 main_v13 (broadcastInDim S2048x1 ![0] bcast_S2048_S2048x1_0 : (⟨S2048, .i32⟩ : BufTy).Contents (Elt F) → (⟨S2048x1, .i32⟩ : BufTy).Contents (Elt F)),
    binary main_arg3 main_v13 main_v14 ((fun x i => Host.gather gather_S2048_S2048x1_S2048_n_0_n_n_0_1_1 x i) : (⟨S2048, .i32⟩ : BufTy).Contents (Elt F) → (⟨S2048x1, .i32⟩ : BufTy).Contents (Elt F) → (⟨S2048, .i32⟩ : BufTy).Contents (Elt F)),
    unary main_v14 main_v15 (sitofp .f32 : (⟨S2048, .i32⟩ : BufTy).Contents (Elt F) → (⟨S2048, .f32⟩ : BufTy).Contents (Elt F)),
    nullary main_c_4 (constantI S_ 32 0#32),
    unary main_c_4 main_v16 (broadcastInDim S2048 ![] bcast_S_S2048 : (⟨S_, .i32⟩ : BufTy).Contents (Elt F) → (⟨S2048, .i32⟩ : BufTy).Contents (Elt F)),
    binary main_arg4 main_v16 main_v17 (cmpi .slt : (⟨S2048, .i32⟩ : BufTy).Contents (Elt F) → (⟨S2048, .i32⟩ : BufTy).Contents (Elt F) → (⟨S2048, .i1⟩ : BufTy).Contents (Elt F)),
    nullary main_c_5 (constantI S_ 32 2048#32),
    unary main_c_5 main_v18 (broadcastInDim S2048 ![] bcast_S_S2048 : (⟨S_, .i32⟩ : BufTy).Contents (Elt F) → (⟨S2048, .i32⟩ : BufTy).Contents (Elt F)),
    binary main_arg4 main_v18 main_v19 (addi : (⟨S2048, .i32⟩ : BufTy).Contents (Elt F) → (⟨S2048, .i32⟩ : BufTy).Contents (Elt F) → (⟨S2048, .i32⟩ : BufTy).Contents (Elt F)),
    ternary main_v17 main_v19 main_arg4 main_v20 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v20 main_v21 (broadcastInDim S2048x1 ![0] bcast_S2048_S2048x1_0 : (⟨S2048, .i32⟩ : BufTy).Contents (Elt F) → (⟨S2048x1, .i32⟩ : BufTy).Contents (Elt F)),
    binary main_arg1 main_v21 main_v22 ((fun x i => Host.gather gather_S2048_S2048x1_S2048_n_0_n_n_0_1_1 x i) : (⟨S2048, .f32⟩ : BufTy).Contents (Elt F) → (⟨S2048x1, .i32⟩ : BufTy).Contents (Elt F) → (⟨S2048, .f32⟩ : BufTy).Contents (Elt F)),
    nullary main_c_6 (constantI S_ 32 0#32),
    unary main_c_6 main_v23 (broadcastInDim S2048 ![] bcast_S_S2048 : (⟨S_, .i32⟩ : BufTy).Contents (Elt F) → (⟨S2048, .i32⟩ : BufTy).Contents (Elt F)),
    binary main_arg4 main_v23 main_v24 (cmpi .slt : (⟨S2048, .i32⟩ : BufTy).Contents (Elt F) → (⟨S2048, .i32⟩ : BufTy).Contents (Elt F) → (⟨S2048, .i1⟩ : BufTy).Contents (Elt F)),
    nullary main_c_7 (constantI S_ 32 2048#32),
    unary main_c_7 main_v25 (broadcastInDim S2048 ![] bcast_S_S2048 : (⟨S_, .i32⟩ : BufTy).Contents (Elt F) → (⟨S2048, .i32⟩ : BufTy).Contents (Elt F)),
    binary main_arg4 main_v25 main_v26 (addi : (⟨S2048, .i32⟩ : BufTy).Contents (Elt F) → (⟨S2048, .i32⟩ : BufTy).Contents (Elt F) → (⟨S2048, .i32⟩ : BufTy).Contents (Elt F)),
    ternary main_v24 main_v26 main_arg4 main_v27 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v27 main_v28 (broadcastInDim S2048x1 ![0] bcast_S2048_S2048x1_0 : (⟨S2048, .i32⟩ : BufTy).Contents (Elt F) → (⟨S2048x1, .i32⟩ : BufTy).Contents (Elt F)),
    binary main_arg2 main_v28 main_v29 ((fun x i => Host.gather gather_S2048_S2048x1_S2048_n_0_n_n_0_1_1 x i) : (⟨S2048, .f32⟩ : BufTy).Contents (Elt F) → (⟨S2048x1, .i32⟩ : BufTy).Contents (Elt F) → (⟨S2048, .f32⟩ : BufTy).Contents (Elt F)),
    binary main_v4 main_v22 main_v30 (subf : (⟨S2048, .f32⟩ : BufTy).Contents (Elt F) → (⟨S2048, .f32⟩ : BufTy).Contents (Elt F) → (⟨S2048, .f32⟩ : BufTy).Contents (Elt F)),
    nullary main_cst_8 (constant S_ .f32 0x42800000#32),
    unary main_cst_8 main_v31 (broadcastInDim S2048 ![] bcast_S_S2048 : (⟨S_, .f32⟩ : BufTy).Contents (Elt F) → (⟨S2048, .f32⟩ : BufTy).Contents (Elt F)),
    binary main_v15 main_v31 main_v32 (addf : (⟨S2048, .f32⟩ : BufTy).Contents (Elt F) → (⟨S2048, .f32⟩ : BufTy).Contents (Elt F) → (⟨S2048, .f32⟩ : BufTy).Contents (Elt F)),
    nullary main_cst_9 (constant S_ .f32 0x42800000#32),
    unary main_cst_9 main_v33 (broadcastInDim S2048 ![] bcast_S_S2048 : (⟨S_, .f32⟩ : BufTy).Contents (Elt F) → (⟨S2048, .f32⟩ : BufTy).Contents (Elt F)),
    binary main_v33 main_v32 main_v34 (Host.divf : (⟨S2048, .f32⟩ : BufTy).Contents (Elt F) → (⟨S2048, .f32⟩ : BufTy).Contents (Elt F) → (⟨S2048, .f32⟩ : BufTy).Contents (Elt F)),
    binary main_v30 main_v34 main_v35 (mulf : (⟨S2048, .f32⟩ : BufTy).Contents (Elt F) → (⟨S2048, .f32⟩ : BufTy).Contents (Elt F) → (⟨S2048, .f32⟩ : BufTy).Contents (Elt F)),
    binary main_v22 main_v35 main_v36 (addf : (⟨S2048, .f32⟩ : BufTy).Contents (Elt F) → (⟨S2048, .f32⟩ : BufTy).Contents (Elt F) → (⟨S2048, .f32⟩ : BufTy).Contents (Elt F)),
    binary main_v29 main_v7 main_v37 (addf : (⟨S2048, .f32⟩ : BufTy).Contents (Elt F) → (⟨S2048, .f32⟩ : BufTy).Contents (Elt F) → (⟨S2048, .f32⟩ : BufTy).Contents (Elt F)),
    binary main_v30 main_v30 main_v38 (mulf : (⟨S2048, .f32⟩ : BufTy).Contents (Elt F) → (⟨S2048, .f32⟩ : BufTy).Contents (Elt F) → (⟨S2048, .f32⟩ : BufTy).Contents (Elt F)),
    binary main_v38 main_v15 main_v39 (mulf : (⟨S2048, .f32⟩ : BufTy).Contents (Elt F) → (⟨S2048, .f32⟩ : BufTy).Contents (Elt F) → (⟨S2048, .f32⟩ : BufTy).Contents (Elt F)),
    nullary main_cst_10 (constant S_ .f32 0x42800000#32),
    unary main_cst_10 main_v40 (broadcastInDim S2048 ![] bcast_S_S2048 : (⟨S_, .f32⟩ : BufTy).Contents (Elt F) → (⟨S2048, .f32⟩ : BufTy).Contents (Elt F)),
    binary main_v39 main_v40 main_v41 (mulf : (⟨S2048, .f32⟩ : BufTy).Contents (Elt F) → (⟨S2048, .f32⟩ : BufTy).Contents (Elt F) → (⟨S2048, .f32⟩ : BufTy).Contents (Elt F)),
    binary main_v41 main_v32 main_v42 (Host.divf : (⟨S2048, .f32⟩ : BufTy).Contents (Elt F) → (⟨S2048, .f32⟩ : BufTy).Contents (Elt F) → (⟨S2048, .f32⟩ : BufTy).Contents (Elt F)),
    binary main_v37 main_v42 main_v43 (addf : (⟨S2048, .f32⟩ : BufTy).Contents (Elt F) → (⟨S2048, .f32⟩ : BufTy).Contents (Elt F) → (⟨S2048, .f32⟩ : BufTy).Contents (Elt F)),
    binary main_v43 main_v32 main_v44 (Host.divf : (⟨S2048, .f32⟩ : BufTy).Contents (Elt F) → (⟨S2048, .f32⟩ : BufTy).Contents (Elt F) → (⟨S2048, .f32⟩ : BufTy).Contents (Elt F)),
    nullary main_cst_11 (constant S_ .f32 0x322BCC77#32),
    unary main_cst_11 main_v45 (broadcastInDim S2048 ![] bcast_S_S2048 : (⟨S_, .f32⟩ : BufTy).Contents (Elt F) → (⟨S2048, .f32⟩ : BufTy).Contents (Elt F)),
    binary main_v44 main_v45 main_v46 (addf : (⟨S2048, .f32⟩ : BufTy).Contents (Elt F) → (⟨S2048, .f32⟩ : BufTy).Contents (Elt F) → (⟨S2048, .f32⟩ : BufTy).Contents (Elt F)),
    unary main_v46 main_v47 (Host.sqrt : (⟨S2048, .f32⟩ : BufTy).Contents (Elt F) → (⟨S2048, .f32⟩ : BufTy).Contents (Elt F)),
    unary main_v36 main_v48 (broadcastInDim S1x2048x1 ![1] bcast_S2048_S1x2048x1_1 : (⟨S2048, .f32⟩ : BufTy).Contents (Elt F) → (⟨S1x2048x1, .f32⟩ : BufTy).Contents (Elt F)),
    unary main_v48 main_v49 (broadcastInDim S64x2048x512 ![0, 1, 2] bcast_S1x2048x1_S64x2048x512_0_1_2 : (⟨S1x2048x1, .f32⟩ : BufTy).Contents (Elt F) → (⟨S64x2048x512, .f32⟩ : BufTy).Contents (Elt F)),
    binary main_arg0 main_v49 main_v50 (subf : (⟨S64x2048x512, .f32⟩ : BufTy).Contents (Elt F) → (⟨S64x2048x512, .f32⟩ : BufTy).Contents (Elt F) → (⟨S64x2048x512, .f32⟩ : BufTy).Contents (Elt F)),
    unary main_v47 main_v51 (broadcastInDim S1x2048x1 ![1] bcast_S2048_S1x2048x1_1 : (⟨S2048, .f32⟩ : BufTy).Contents (Elt F) → (⟨S1x2048x1, .f32⟩ : BufTy).Contents (Elt F)),
    unary main_v51 main_v52 (broadcastInDim S64x2048x512 ![0, 1, 2] bcast_S1x2048x1_S64x2048x512_0_1_2 : (⟨S1x2048x1, .f32⟩ : BufTy).Contents (Elt F) → (⟨S64x2048x512, .f32⟩ : BufTy).Contents (Elt F)),
    binary main_v50 main_v52 main_v53 (Host.divf : (⟨S64x2048x512, .f32⟩ : BufTy).Contents (Elt F) → (⟨S64x2048x512, .f32⟩ : BufTy).Contents (Elt F) → (⟨S64x2048x512, .f32⟩ : BufTy).Contents (Elt F)),
    nullary main_cst_12 (constant S_ .f32 0x40000000#32),
    unary main_cst_12 main_v54 (broadcastInDim S2048 ![] bcast_S_S2048 : (⟨S_, .f32⟩ : BufTy).Contents (Elt F) → (⟨S2048, .f32⟩ : BufTy).Contents (Elt F)),
    binary main_v32 main_v54 main_v55 (cmpf .oge : (⟨S2048, .f32⟩ : BufTy).Contents (Elt F) → (⟨S2048, .f32⟩ : BufTy).Contents (Elt F) → (⟨S2048, .i1⟩ : BufTy).Contents (Elt F)),
    unary main_v55 main_v56 (broadcastInDim S1x2048x1 ![1] bcast_S2048_S1x2048x1_1 : (⟨S2048, .i1⟩ : BufTy).Contents (Elt F) → (⟨S1x2048x1, .i1⟩ : BufTy).Contents (Elt F)),
    TRef.unary (.of main_v56 : TRef sig ⟨S1x2048x1, .i1⟩) (.of main_call1_v0 : TRef sig ⟨S64x2048x512, .i1⟩) (broadcastInDim S64x2048x512 ![0, 1, 2] bcast_S1x2048x1_S64x2048x512_0_1_2),
    TRef.ternary (.of main_call1_v0 : TRef sig ⟨S64x2048x512, .i1⟩) (.of main_v53 : TRef sig ⟨S64x2048x512, .f32⟩) (.of main_arg0 : TRef sig ⟨S64x2048x512, .f32⟩) (.of main_v57 : TRef sig ⟨S64x2048x512, .f32⟩) select ]

/-- @main is that straight line: its two windows and the three callees' bodies unfold, at the calls' records, to one
    chain of the same steps. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., binary_bufs_sub .., binary_bufs_sub ..,
    binary_bufs_sub .., nullary_bufs_sub .., unary_bufs_sub .., binary_bufs_sub .., binary_bufs_sub .., binary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., ternary_bufs_sub ..⟩

set_option maxRecDepth 8192 in
set_option maxHeartbeats 4000000 in
/-- What the result array holds after the line: each operation's value read at its own buffer and every other buffer
    left as it was, the composed term is `refOut` of the argument arrays, piece by piece in the printed order (the
    callees' values come through the identity transports of their typed references). -/
theorem out_eq (V : Valuation τ sig (Elt F)) :
    after ops V (main_v57 : DevRef τ sig)
      = Cert.Stats.refOut (F := F) (V (main_arg0 : DevRef τ sig)) (V (main_arg1 : DevRef τ sig)) (V (main_arg2 : DevRef τ sig))
          (V (main_arg3 : DevRef τ sig)) (V (main_arg4 : DevRef τ sig)) := by
  after_results_simp
  rfl

set_option maxRecDepth 8192 in
set_option maxHeartbeats 4000000 in
/-- No operation of the line writes an argument array. -/
theorem args_eq (V : Valuation τ sig (Elt F)) :
    after ops V (main_arg0 : DevRef τ sig) = V (main_arg0 : DevRef τ sig)
      ∧ after ops V (main_arg1 : DevRef τ sig) = V (main_arg1 : DevRef τ sig)
      ∧ after ops V (main_arg2 : DevRef τ sig) = V (main_arg2 : DevRef τ sig)
      ∧ after ops V (main_arg3 : DevRef τ sig) = V (main_arg3 : DevRef τ sig)
      ∧ after ops V (main_arg4 : DevRef τ sig) = V (main_arg4 : DevRef τ sig) := by
  refine ⟨?_, ?_, ?_, ?_, ?_⟩ <;> after_results_simp

/-- Every weakly fair execution of the reference's @main terminates with the result at `refOut` of the arguments and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) =
        Cert.Stats.refOut (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have a := args_eq (F := F) (launchContents m c)
      ⟨(h c main_v57).trans (out_eq (launchContents m c)),
        (h c main_arg0).trans a.1, (h c main_arg1).trans a.2.1, (h c main_arg2).trans a.2.2.1,
        (h c main_arg3).trans a.2.2.2.1, (h c main_arg4).trans a.2.2.2.2⟩)
    (run_seq scopedRefs_eq scopedSems_eq defs main (fun _ => ops) main_eq (fun _ => ops_sub) m ρ)

end Cert.ReferenceIdeal.HandRun

end
-- ==== Proof.Law.lean ====
/-
  The algebra that joins the two programs, on the extended reals.

  The reference normalizes a column by the QUOTIENT `(v - μ) / σ`; the kernel multiplies by the RECIPROCAL,
  `(v - μ) · (1 / σ)`. The instance's division is `x · y⁻¹` off a zero divisor and an infinity (or the junk `⊥`
  for `0 / 0`) at one, so the two agree for EVERY extended real `v - μ` as soon as `σ ≠ 0` — and `σ` is the square
  root of a positive extended real, which is never zero. Where the column is passed through, the kernel's affine map
  is `(v - 0) · (1 / 1) = v`.
-/
import Idealize.ShloMosaic.PureOps.Ideal
import Idealize.ShloMosaic.PureOps.Ideal.Laws

noncomputable section

namespace Cert.Law

open Idealize.ShloMosaic

/-- Off a zero divisor, the quotient is the product with the reciprocal: both are `a · s⁻¹`. -/
theorem div_eq_mul_one_div (a s : EReal) (hs : s ≠ 0) : Ideal.div a s = a * Ideal.div 1 s := by
  unfold Ideal.div
  rw [if_neg hs, if_neg hs, one_mul]

/-- The square root of a positive extended real is not zero: `√⊤ = ⊤`, and a positive real has a positive root. -/
theorem sqrt_ne_zero_of_pos {x : EReal} (hx : 0 < x) : Ideal.sqrt x ≠ 0 := by
  induction x using EReal.rec with
  | bot => exact absurd hx (by simp)
  | top => rw [Ideal.sqrt_top]; exact EReal.top_ne_zero
  | coe r =>
    have hr : 0 < r := by exact_mod_cast hx
    rw [Ideal.sqrt_coe, if_neg (not_lt.mpr hr.le)]
    exact_mod_cast (Real.sqrt_pos.mpr hr).ne'

/-- The word `0x42800000` denotes sixty-four. -/
theorem ofBits_64 : Ideal.ofBits .f32 0x42800000#32 = ((64 : ℝ) : EReal) := by
  simp [Ideal.ofBits, Ideal.ieee, -EReal.coe_mul]; norm_num

/-- The reciprocal of one is one. -/
theorem div_one_one : Ideal.div 1 1 = 1 := by
  unfold Ideal.div
  rw [if_neg one_ne_zero]
  simp

/-- The passed-through column: subtracting zero and multiplying by the reciprocal of one change nothing. -/
theorem passthrough (v : EReal) : (v - 0) * Ideal.div 1 1 = v := by
  rw [div_one_one, sub_zero, mul_one]

end Cert.Law

end
-- ==== Proof.PreDecode.lean ====
/-
  What the precondition gives: on every column the reference normalizes (merged count at least two), the merged
  variance plus ε — the number the reference takes the square root of and then divides by — is positive.

  The precondition spells the batch variance as the column sum of (last − mean)² over 64, the mean divided first and
  then laid over the batch; the programs' variance routine lays the column sum out first, divides there, and divides the
  sum of squares by 64 − 0 under a select on that divisor being positive. At the extended reals the two are one array:
  the divisor is sixty-four, which is positive, and a quotient by a constant commutes with laying a row out. The last
  conjunct of the precondition then reads, column by column, "merged count ≥ 2 implies merged variance + ε > 0".
-/
import proofs.«126964_j40862318854702_1_alg».proof.Proof.Gen.Pre_finite_inputs
import proofs.«126964_j40862318854702_1_alg».proof.Proof.Stats
import proofs.«126964_j40862318854702_1_alg».proof.Proof.Law
import Idealize.ShloMosaic.Lib.ReduceAll
import Idealize.ShloMosaic.Lib.ValueIdx
import Idealize.ShloMosaic.Lib.IdealHost
import Idealize.ShloMosaic.Lib.StableHlo.Predicate
import Idealize.ShloMosaic.PureOps.Ideal.Laws

noncomputable section

namespace Cert.PreDecode

open Idealize.ShloMosaic Cert.ReferenceIdeal Cert.ReferenceIdeal.Facts₀

/-- The scalar shape has exactly one index. -/
instance subsingleton_scalarIdx : Subsingleton (⟨0, ![]⟩ : Shape).Idx := ⟨fun _ _ => funext fun d => d.elim0⟩

/-- The deviations from the batch mean, the mean divided first and then laid over the batch. -/
def dev (x : FVec Ideal S64x2048x512 .f32) : FVec Ideal S64x2048 .f32 :=
  subf (Cert.Stats.last x) (broadcastInDim S64x2048 ![0, 1] bcast_S1x2048_S64x2048_0_1
    (broadcastInDim S1x2048 ![1] bcast_S2048_S1x2048_1 (Cert.Stats.meanNew x)))

/-- The batch variance per column as the precondition spells it: the column sum of the squared deviations over 64. -/
def varPre (x : FVec Ideal S64x2048x512 .f32) : FVec Ideal S2048 .f32 :=
  Host.divf (Host.reduceAdd (mulf (dev x) (dev x)) (constant (F := Ideal) S_ .f32 0x00000000#32) reducesTo_S64x2048_S2048_d0 h_S_)
    (Cert.Stats.splat 0x42800000#32)

/-- Dividing a row by a constant and laying the quotient out as 1 × 2048 is laying the row out and dividing there. -/
theorem divf_bcast_row (c : FVec Ideal S2048 .f32) (w : BitVec 32) :
    Host.divf (broadcastInDim S1x2048 ![1] bcast_S2048_S1x2048_1 c)
      (broadcastInDim S1x2048 ![] bcast_S_S1x2048 (constant (F := Ideal) S_ .f32 w))
    = broadcastInDim S1x2048 ![1] bcast_S2048_S1x2048_1 (Host.divf c (Cert.Stats.splat w)) := rfl

/-- The two spellings of the deviations agree. -/
theorem centered_eq (x : FVec Ideal S64x2048x512 .f32) : Cert.Stats.centered x = dev x := by
  unfold Cert.Stats.centered dev Cert.Stats.meanNew
  rw [divf_bcast_row]

/-- The variance routine's divisor is sixty-four: the integer zero converts to zero. -/
theorem dofDen_apply (i : S_.Idx) : Cert.Stats.dofDen (F := Ideal) i = ((64 : ℝ) : EReal) := by
  show Ideal.ofBits .f32 0x42800000#32 - (((0#32 : BitVec 32).toInt : ℝ) : EReal) = _
  rw [Cert.Law.ofBits_64]
  simp

/-- The variance routine returns the precondition's spelling: its divisor 64 is positive, so the select takes the quotient. -/
theorem varNew_eq (x : FVec Ideal S64x2048x512 .f32) : Cert.Stats.varNew x = varPre x := by
  funext n
  unfold Cert.Stats.varNew varPre Cert.Stats.sqSum
  rw [ValueIdx.select_apply]
  have hc : broadcastInDim S2048 ![] bcast_S_S2048
      (cmpf .ogt (Cert.Stats.dofDen (F := Ideal)) (constant (F := Ideal) S_ .f32 0x00000000#32)) n = 1#1 := by
    rw [StableHlo.Predicate.bcast_scalar _ h_S_, ValueIdx.cmpf_apply, Ideal.cmpf_def, dofDen_apply, ValueIdx.constant_apply,
      Ideal.ofBits_zero_f32]
    simp [Ideal.cmp]
  rw [hc, ValueIdx.select_one, ValueIdx.hostDivf_apply, ValueIdx.hostDivf_apply, StableHlo.Predicate.bcast_scalar _ h_S_,
    dofDen_apply, centered_eq]
  show _ = Ideal.div _ (Ideal.ofBits .f32 0x42800000#32)
  rw [Cert.Law.ofBits_64]

attribute [local irreducible] Host.reduceAdd Host.gather Host.reduce in
/-- The precondition's last conjunct, named over the statistics: on every column, where the merged count is at least two
    the merged variance plus ε (over the precondition's spelling of the batch variance) exceeds the zero word. -/
theorem last_conjunct (x : FVec Ideal S64x2048x512 .f32) (mu M2 : FVec Ideal S2048 .f32) (cnt sid : IVec S2048 32)
    (h : Cert.Pre_finite_inputs.fn (F := Ideal) x mu M2 cnt sid = fun _ => 1#1) :
    Host.reduce IntOp.andi
      (select (Cert.Stats.ok (F := Ideal) cnt sid)
        (cmpf .ogt (Cert.Stats.varEpsOf (varPre x) x mu M2 cnt sid) (Cert.Stats.splat (F := Ideal) 0x00000000#32))
        (broadcastInDim S2048 ![] bcast_S_S2048 (constantI S_ 1 1#1)))
      (constantI S_ 1 1#1) Cert.Pre_finite_inputs.Facts.reducesTo_S2048_S_d0 h_S_ ValueIdx.ix0 = 1#1 :=
  (IntOp.andi_eq_one.1 (congrFun h ValueIdx.ix0)).2

/-- Under the precondition, a normalized column's merged variance plus ε is positive. -/
theorem pos_of_pre (x : FVec Ideal S64x2048x512 .f32) (mu M2 : FVec Ideal S2048 .f32) (cnt sid : IVec S2048 32)
    (h : Cert.Pre_finite_inputs.fn (F := Ideal) x mu M2 cnt sid = fun _ => 1#1) (n : S2048.Idx)
    (hok : Cert.Stats.ok (F := Ideal) cnt sid n = 1#1) :
    0 < Cert.Stats.varEps (F := Ideal) x mu M2 cnt sid n := by
  have hsel := Host.reduce_andi_all _ _ _ _ _ (last_conjunct x mu M2 cnt sid h) n
  rw [ValueIdx.select_apply, hok, ValueIdx.select_one, ValueIdx.cmpf_apply, Ideal.cmpf_def] at hsel
  have hz : Cert.Stats.splat (F := Ideal) 0x00000000#32 n = 0 := Ideal.ofBits_zero_f32
  rw [hz] at hsel
  simp only [Ideal.cmp, StableHlo.Predicate.ofBool_eq_one_iff, decide_eq_true_eq] at hsel
  show 0 < Cert.Stats.varEpsOf (Cert.Stats.varNew x) x mu M2 cnt sid n
  rw [varNew_eq]
  exact hsel

end Cert.PreDecode

end
-- ==== Proof.Bridge.lean ====
/-
  The two programs' results are one function of the argument arrays.

  At index (b, n, h) the kernel's array holds (x − shift n) · invScale n and the reference's holds, where column n is
  normalized, (x − μ n) / σ n, and x elsewhere. On a normalized column shift n = μ n and invScale n = 1 / σ n, and
  σ n = √(merged variance + ε) is not zero because that number is positive, so the quotient is the product with the
  reciprocal (for every extended real x − μ n). Elsewhere shift n = 0 and invScale n = 1 / 1.
-/
import proofs.«126964_j40862318854702_1_alg».proof.Proof.KernelArray
import proofs.«126964_j40862318854702_1_alg».proof.Proof.Stats
import proofs.«126964_j40862318854702_1_alg».proof.Proof.Law
import Idealize.ShloMosaic.Lib.ValueIdx
import Idealize.ShloMosaic.Lib.IdealHost
import Idealize.ShloMosaic.Lib.Pipeline.Value

noncomputable section

namespace Cert.Bridge

open Idealize.ShloMosaic Idealize.ShloMosaic.ValueIdx Cert.ReferenceIdeal

/-- The column of an index of the values array, as an index of a length-2048 vector. -/
abbrev colOf (i : S64x2048x512.Idx) : S2048.Idx := fun a => match a with
  | ⟨0, _⟩ => ⟨(i 1).val, by have h1 : (i 1).val < 2048 := (i 1).isLt; show (i 1).val < 2048; omega⟩

/-- A column statistic laid over the whole array reads, at an index, the statistic of the index's column. -/
theorem overAll_apply {α : Type} (bc1 : S2048.BroadcastsInDim S1x2048x1 (![1] : Fin 1 → Fin S1x2048x1.rank))
    (bc3 : S1x2048x1.BroadcastsInDim S64x2048x512 (![0, 1, 2] : Fin 3 → Fin S64x2048x512.rank)) (a : S2048.Idx → α)
    (i : S64x2048x512.Idx) : Cert.Stats.overAll bc1 bc3 a i = a (colOf i) := by
  have h1 : (i 1).val < 2048 := (i 1).isLt
  refine (broadcastInDim_apply _ bc3 _ i (fun a => match a with
      | ⟨0, _⟩ => ⟨0, by show 0 < 1; omega⟩
      | ⟨1, _⟩ => ⟨(i 1).val, by show (i 1).val < 2048; omega⟩
      | ⟨2, _⟩ => ⟨0, by show 0 < 1; omega⟩ : S1x2048x1.Idx) (fun a => match a with
      | ⟨0, _⟩ => by show 0 = (if (1 : Nat) = 1 then 0 else (i 0).val); rw [if_pos rfl]
      | ⟨1, _⟩ => by show (i 1).val = (if (2048 : Nat) = 1 then 0 else (i 1).val); rw [if_neg (by omega)]
      | ⟨2, _⟩ => by show 0 = (if (1 : Nat) = 1 then 0 else (i 2).val); rw [if_pos rfl])).trans ?_
  exact broadcastInDim_apply _ bc1 a _ (colOf i) (fun a => match a with
      | ⟨0, _⟩ => by show (i 1).val = (if (2048 : Nat) = 1 then 0 else (i 1).val); rw [if_neg (by omega)])

/-- A length-2048 vector reshaped to one row reads, at (0, n), its entry n. -/
theorem row_apply {α : Type} (a : S2048.Idx → α) (hc : S2048.ShapeCasts Cert.KernelIdeal.S1x2048) (i : S64x2048x512.Idx) :
    shapeCast Cert.KernelIdeal.S1x2048 a hc (Cert.KernelIdeal.ArrayValue.col i) = a (colOf i) := by
  refine shapeCast_apply a hc _ (colOf i) ?_
  rw [Shape.rowMajor_val_one, Shape.rowMajor_val_two]
  show (i 1).val = 0 * 2048 + (i 1).val
  omega

/-- A scalar word on every column reads that word. -/
theorem splat_apply (w : BitVec 32) (n : S2048.Idx) : Cert.Stats.splat (F := Ideal) w n = Ideal.ofBits .f32 w := rfl

/-- THE TWO RESULTS AGREE: under positivity of the merged variance plus ε on the normalized columns, the kernel's
    affine map of the values, the shift row and the reciprocal-scale row is the reference's function. -/
theorem value_eq (x : FVec Ideal S64x2048x512 .f32) (mu M2 : FVec Ideal S2048 .f32) (cnt sid : IVec S2048 32)
    (hc : S2048.ShapeCasts Cert.KernelIdeal.S1x2048)
    (hpos : ∀ n : S2048.Idx, Cert.Stats.ok (F := Ideal) cnt sid n = 1#1 → 0 < Cert.Stats.varEps (F := Ideal) x mu M2 cnt sid n) :
    Cert.KernelIdeal.ArrayValue.G (F := Ideal) x (shapeCast Cert.KernelIdeal.S1x2048 (Cert.Stats.shift (F := Ideal) x mu cnt sid) hc)
        (shapeCast Cert.KernelIdeal.S1x2048 (Cert.Stats.invScale (F := Ideal) x mu M2 cnt sid) hc)
      = Cert.Stats.refOut (F := Ideal) x mu M2 cnt sid := by
  funext i
  show (x i - shapeCast Cert.KernelIdeal.S1x2048 (Cert.Stats.shift (F := Ideal) x mu cnt sid) hc (Cert.KernelIdeal.ArrayValue.col i))
      * shapeCast Cert.KernelIdeal.S1x2048 (Cert.Stats.invScale (F := Ideal) x mu M2 cnt sid) hc (Cert.KernelIdeal.ArrayValue.col i) = _
  rw [row_apply, row_apply]
  unfold Cert.Stats.refOut
  rw [select_apply, overAll_apply, hostDivf_apply, subf_apply, overAll_apply, overAll_apply]
  unfold Cert.Stats.shift Cert.Stats.invScale
  rw [select_apply, hostDivf_apply, select_apply, splat_apply, splat_apply]
  by_cases hok : Cert.Stats.ok (F := Ideal) cnt sid (colOf i) = 1#1
  · rw [hok, select_one, select_one, select_one, Ideal.ofBits_one_f32]
    have hs : Cert.Stats.std (F := Ideal) x mu M2 cnt sid (colOf i) ≠ 0 :=
      Cert.Law.sqrt_ne_zero_of_pos (hpos (colOf i) hok)
    exact (Cert.Law.div_eq_mul_one_div _ _ hs).symm
  · rw [eq_zero_of_ne_one hok, select_zero, select_zero, select_zero, Ideal.ofBits_one_f32, Ideal.ofBits_zero_f32]
    exact Cert.Law.passthrough _

end Cert.Bridge

end
-- ==== Proof.lean ====
/-
  The certificate: a per-signature normalizer. On the host both programs merge the batch's last-time-step statistics
  into the running per-signature statistics (merged count, merged mean μ, merged standard deviation σ = √(merged
  variance + ε)); the reference then returns (x − μ) / σ on the columns whose merged count is at least two and x on
  the others, while the kernel streams the values through one affine map (x − shift) · invScale with
  (shift, invScale) = (μ, 1/σ) on the normalized columns and (0, 1/1) on the others.

  Over the extended reals the quotient by σ is the product with 1/σ exactly when σ ≠ 0 (at σ = 0 the quotient 0/0 and
  the product 0 · (1/0) differ), and σ ≠ 0 is what the precondition's last conjunct gives: on every normalized column
  the merged variance plus ε — the argument of the reference's own square root, by which it then divides — is positive.

  The two frames of the kernel are the generated ones; the reference's frame is its run with the result dropped; the
  idealization rewrote nothing, so `preserves` is trivial.
-/
import proofs.«126964_j40862318854702_1_alg».proof.Defs
import proofs.«126964_j40862318854702_1_alg».proof.Proof.Gen.Kernel
import proofs.«126964_j40862318854702_1_alg».proof.Proof.Gen.Kernel.Frame
import proofs.«126964_j40862318854702_1_alg».proof.Proof.Gen.KernelIdeal
import proofs.«126964_j40862318854702_1_alg».proof.Proof.Gen.KernelIdeal.Frame
import proofs.«126964_j40862318854702_1_alg».proof.Proof.Gen.ReferenceIdeal
import proofs.«126964_j40862318854702_1_alg».proof.Proof.Gen.Pre_finite_inputs
import proofs.«126964_j40862318854702_1_alg».proof.Proof.KernelArray
import proofs.«126964_j40862318854702_1_alg».proof.Proof.KernelHost
import proofs.«126964_j40862318854702_1_alg».proof.Proof.RefRun
import proofs.«126964_j40862318854702_1_alg».proof.Proof.PreDecode
import proofs.«126964_j40862318854702_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- Both programs end with the reference's function of the argument arrays: the kernel's array is the affine map of
    the values and of the two rows its host operations wrote (the shift and the reciprocal scale), which is that
    function because the standard deviation of a normalized column is not zero under the precondition. -/
theorem algebraic : Cert.algebraic_KernelIdeal_ReferenceIdeal := by
  intro m ρ m' ρ' hpre hagree
  refine ⟨fun c => Cert.Stats.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.ArrayValue.run (F := Ideal) m ρ)
    rw [Cert.KernelIdeal.HostValue.shift_eq, Cert.KernelIdeal.HostValue.invScale_eq]
    exact Cert.Bridge.value_eq _ _ _ _ _ _ (fun n hok => Cert.PreDecode.pos_of_pre _ _ _ _ _ (hpre c) n hok)
  · refine (θ_run Cert.ReferenceIdeal.defs _ _).mono (fun r h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
